-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x384x32x32 : Shape := ⟨4, ![8, 384, 32, 32]⟩
abbrev S768x384 : Shape := ⟨2, ![768, 384]⟩
abbrev S_ : Shape := ⟨0, ![]⟩

class Facts : Prop where
  bcast_S_S8x384x32x32 : S_.BroadcastsInDim S8x384x32x32 (![] : Fin 0 → Fin S8x384x32x32.rank)
  reducesTo_S8x384x32x32_S_d0_1_2_3 : S8x384x32x32.ReducesTo [0, 1, 2, 3] S_
  h_S_ : 0 < S_.numel
  bcast_S_S768x384 : S_.BroadcastsInDim S768x384 (![] : Fin 0 → Fin S768x384.rank)
  reducesTo_S768x384_S_d0_1 : S768x384.ReducesTo [0, 1] S_

variable [Facts]

def fn {F : FTy → Type} [FloatOps F] (main_arg0 : FVec F S8x384x32x32 .f32) (main_arg1 : FVec F S768x384 .f32) (main_arg2 : FVec F S768x384 .f32) : IVec S_ 1 :=
  let main_v0 : FVec F S8x384x32x32 .f32 := Host.absf main_arg0
  let main_cst : FVec F S_ .f32 := constant S_ .f32 0x7F800000#32
  let main_v1 : FVec F S8x384x32x32 .f32 := broadcastInDim S8x384x32x32 ![] bcast_S_S8x384x32x32 main_cst
  let main_v2 : IVec S8x384x32x32 1 := cmpf .olt main_v0 main_v1
  let main_c : IVec S_ 1 := constantI S_ 1 1#1
  let main_v3 : IVec S_ 1 := (fun x v => Host.reduce IntOp.andi x v reducesTo_S8x384x32x32_S_d0_1_2_3 h_S_) main_v2 main_c
  let main_v4 : FVec F S768x384 .f32 := Host.absf main_arg1
  let main_cst_0 : FVec F S_ .f32 := constant S_ .f32 0x7F800000#32
  let main_v5 : FVec F S768x384 .f32 := broadcastInDim S768x384 ![] bcast_S_S768x384 main_cst_0
  let main_v6 : IVec S768x384 1 := cmpf .olt main_v4 main_v5
  let main_c_1 : IVec S_ 1 := constantI S_ 1 1#1
  let main_v7 : IVec S_ 1 := (fun x v => Host.reduce IntOp.andi x v reducesTo_S768x384_S_d0_1 h_S_) main_v6 main_c_1
  let main_v8 : IVec S_ 1 := andi main_v3 main_v7
  let main_v9 : FVec F S768x384 .f32 := Host.absf main_arg2
  let main_cst_2 : FVec F S_ .f32 := constant S_ .f32 0x7F800000#32
  let main_v10 : FVec F S768x384 .f32 := broadcastInDim S768x384 ![] bcast_S_S768x384 main_cst_2
  let main_v11 : IVec S768x384 1 := cmpf .olt main_v9 main_v10
  let main_c_3 : IVec S_ 1 := constantI S_ 1 1#1
  let main_v12 : IVec S_ 1 := (fun x v => Host.reduce IntOp.andi x v reducesTo_S768x384_S_d0_1 h_S_) main_v11 main_c_3
  let main_v13 : IVec S_ 1 := andi main_v8 main_v12
  main_v13
-- ==== Kernel.lean ====
abbrev S8x384x32x32 : Shape := ⟨4, ![8, 384, 32, 32]⟩
abbrev S768x384 : Shape := ⟨2, ![768, 384]⟩
abbrev S8x48x8x1024 : Shape := ⟨4, ![8, 48, 8, 1024]⟩
abbrev S8x1024x8x48 : Shape := ⟨4, ![8, 1024, 8, 48]⟩
abbrev S8x1024x384 : Shape := ⟨3, ![8, 1024, 384]⟩
abbrev S8x1024x768 : Shape := ⟨3, ![8, 1024, 768]⟩
abbrev S1x1024x384 : Shape := ⟨3, ![1, 1024, 384]⟩
abbrev S1x1024x768 : Shape := ⟨3, ![1, 1024, 768]⟩
abbrev S1024x384 : Shape := ⟨2, ![1024, 384]⟩
abbrev S1024x768 : Shape := ⟨2, ![1024, 768]⟩
abbrev S8x768x1024 : Shape := ⟨3, ![8, 768, 1024]⟩
abbrev S8x768x32x32 : Shape := ⟨4, ![8, 768, 32, 32]⟩

abbrev nBuf : Space → Nat
  | .hbm => 10
  | .vmem => 6
  | .smem => 0
  | _ => 0

abbrev bufTy : (tb : Table) → Fin (tcTables nBuf tb) → BufTy
  | .hbm, ⟨0, _⟩ => ⟨S8x384x32x32, .f32⟩
  | .hbm, ⟨1, _⟩ => ⟨S768x384, .f32⟩
  | .hbm, ⟨2, _⟩ => ⟨S768x384, .f32⟩
  | .hbm, ⟨3, _⟩ => ⟨S8x48x8x1024, .f32⟩
  | .hbm, ⟨4, _⟩ => ⟨S8x1024x8x48, .f32⟩
  | .hbm, ⟨5, _⟩ => ⟨S8x1024x384, .f32⟩
  | .hbm, ⟨6, _⟩ => ⟨S8x1024x384, .bf16⟩
  | .hbm, ⟨7, _⟩ => ⟨S8x1024x768, .f32⟩
  | .hbm, ⟨8, _⟩ => ⟨S8x768x1024, .f32⟩
  | .hbm, ⟨9, _⟩ => ⟨S8x768x32x32, .f32⟩
  | .local _ .vmem, ⟨0, _⟩ => ⟨S1x1024x384, .bf16⟩
  | .local _ .vmem, ⟨1, _⟩ => ⟨S1x1024x384, .bf16⟩
  | .local _ .vmem, ⟨2, _⟩ => ⟨S768x384, .f32⟩
  | .local _ .vmem, ⟨3, _⟩ => ⟨S768x384, .f32⟩
  | .local _ .vmem, ⟨4, _⟩ => ⟨S1x1024x768, .f32⟩
  | .local _ .vmem, ⟨5, _⟩ => ⟨S1x1024x768, .f32⟩
  | _, _ => ⟨S8x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x384x32x32_S8x48x8x1024 : S8x384x32x32.ShapeCasts S8x48x8x1024
  transposes_S8x48x8x1024_S8x1024x8x48_2_3_0_1 : S8x48x8x1024.Transposes [2, 3, 0, 1] S8x1024x8x48
  shapeCasts_S8x1024x8x48_S8x1024x384 : S8x1024x8x48.ShapeCasts S8x1024x384
  bitsLt_bf16_f32 : FTy.bits .bf16 < FTy.bits .f32
  inb_S768x384_S768x384_0_0 : ∀ a, (![0, 0] : Fin 2 → Nat) a + S768x384.size a ≤ S768x384.size a
  h_S768x384 : 0 < S768x384.numel
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S1x1024x768 : S1024x768.ShapeCasts S1x1024x768
  transposes_S8x1024x768_S8x768x1024_0_2_1 : S8x1024x768.Transposes [0, 2, 1] S8x768x1024
  shapeCasts_S8x768x1024_S8x768x32x32 : S8x768x1024.ShapeCasts S8x768x32x32
  dot_S1024x384_S768x384_S1024x768_1_1_0_0_n_n_wf : DotDims.WF S1024x384 S768x384 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x384.size a ≤ S8x1024x384.size a
  hwx0_0 : ∀ i : grid0.Coords, EltTy.bits .bf16 = 32 ∨ (Rect.block (s := S8x1024x384) S1x1024x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x384.size a ≤ S768x384.size a
  hwx0_2 : ∀ i : grid0.Coords, EltTy.bits .f32 = 32 ∨ (Rect.block (s := S768x384) S768x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S8x1024x768.size a
  hwx0_3 : ∀ i : grid0.Coords, EltTy.bits .f32 = 32 ∨ (Rect.block (s := S8x1024x768) S1x1024x768.size (cc0_transform_3 i) (hinb0_3 i)).WholeWords (EltTy.packing .f32)

variable [Facts₀]

def dot_S1024x384_S768x384_S1024x768_1_1_0_0_n_n : DotDims S1024x384 S768x384 S1024x768 where
  lhsContracting := [1]
  rhsContracting := [1]
  lhsNonContracting := [0]
  rhsNonContracting := [0]
  lhsBatch := []
  rhsBatch := []
  wf := dot_S1024x384_S768x384_S1024x768_1_1_0_0_n_n_wf

abbrev win0_0 : Pipeline.Window sig grid0 :=
  Pipeline.Window.ofSpec (Memref.whole main_v3) S1x1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x384x32x32 : Shape := ⟨4, ![8, 384, 32, 32]⟩
abbrev S768x384 : Shape := ⟨2, ![768, 384]⟩
abbrev S384x8192 : Shape := ⟨2, ![384, 8192]⟩
abbrev S768x8192 : Shape := ⟨2, ![768, 8192]⟩
abbrev S768x8x32x32 : Shape := ⟨4, ![768, 8, 32, 32]⟩
abbrev S8x768x32x32 : Shape := ⟨4, ![8, 768, 32, 32]⟩

abbrev nBuf : Space → Nat
  | .hbm => 8
  | .vmem => 0
  | .smem => 0
  | _ => 0

abbrev bufTy : (tb : Table) → Fin (tcTables nBuf tb) → BufTy
  | .hbm, ⟨0, _⟩ => ⟨S8x384x32x32, .f32⟩
  | .hbm, ⟨1, _⟩ => ⟨S768x384, .f32⟩
  | .hbm, ⟨2, _⟩ => ⟨S768x384, .f32⟩
  | .hbm, ⟨3, _⟩ => ⟨S384x8192, .f32⟩
  | .hbm, ⟨4, _⟩ => ⟨S768x384, .f32⟩
  | .hbm, ⟨5, _⟩ => ⟨S768x8192, .f32⟩
  | .hbm, ⟨6, _⟩ => ⟨S768x8x32x32, .f32⟩
  | .hbm, ⟨7, _⟩ => ⟨S8x768x32x32, .f32⟩
  | _, _ => ⟨S8x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S8x384x32x32_S384x8192 : S8x384x32x32.ShapeCasts S384x8192
  shapeCasts_S768x8192_S768x8x32x32 : S768x8192.ShapeCasts S768x8x32x32
  transposes_S768x8x32x32_S8x768x32x32_1_0_2_3 : S768x8x32x32.Transposes [1, 0, 2, 3] S8x768x32x32
  dot_S768x384_S384x8192_S768x8192_1_0_0_1_n_n_wf : DotDims.WF S768x384 S384x8192 S768x8192 [1] [0] [0] [1] [] []

variable [Facts₀]

def dot_S768x384_S384x8192_S768x8192_1_0_0_1_n_n : DotDims S768x384 S384x8192 S768x8192 where
  lhsContracting := [1]
  rhsContracting := [0]
  lhsNonContracting := [0]
  rhsNonContracting := [1]
  lhsBatch := []
  rhsBatch := []
  wf := dot_S768x384_S384x8192_S768x8192_1_0_0_1_n_n_wf

class Facts : Prop extends Facts₀ where

variable [Facts]
-- ==== Proof.Spec.lean ====
/-
  The function both programs compute, written once over literal shapes.

  The operator is a 1x1 convolution whose input is read through a RAW reshape: the [8, 384, 32, 32] input is
  viewed, without moving anything, as a [384, 8192] matrix, and that matrix is multiplied on the left by the
  masked weights [768, 384]. Column `b * 1024 + h * 32 + w` of row `k` of the flat view sits at row-major
  position `(k * 8 + b) * 1024 + h * 32 + w` of the input, which is the entry `(k / 48, (k % 48) * 8 + b, h, w)`,
  since 384 = 48 * 8. So

      out[b, f, h, w] = sum over k < 384 of (kv[f, k] * mask[f, k]) * x[k / 48, (k % 48) * 8 + b, h, w].

  `src` is that entry and `convAt` / `conv` the sum, over the extended reals.
-/
import Idealize.ShloMosaic.PureOps.Ideal
import Idealize.ShloMosaic.Lib.ValueIdx

noncomputable section

open scoped BigOperators
open Idealize.ShloMosaic Idealize.ShloMosaic.ValueIdx

namespace Cert.Conv1x1

/-- The input's shape, the weights' and the result's. -/
abbrev SIn : Shape := ⟨4, ![8, 384, 32, 32]⟩
abbrev SW : Shape := ⟨2, ![768, 384]⟩
abbrev SOut : Shape := ⟨4, ![8, 768, 32, 32]⟩

/-- The input entry that row `k` of the flat [384, 8192] view holds in column `b * 1024 + h * 32 + w`. -/
def src (b : Fin 8) (k : Fin 384) (h w : Fin 32) : SIn.Idx :=
  ix4 (⟨k.val / 48, by have := k.isLt; omega⟩ : Fin 8) (⟨(k.val % 48) * 8 + b.val, by have := b.isLt; omega⟩ : Fin 384) h w

/-- One result element, by coordinates: the masked weights' row `f` against the flat view's column of `(b, h, w)`. -/
def convAt (x : SIn.Idx → EReal) (kv mk : SW.Idx → EReal) (b : Fin 8) (f : Fin 768) (h w : Fin 32) : EReal :=
  ∑ k : Fin 384, (kv (ix2 f k) * mk (ix2 f k)) * x (src b k h w)

/-- The whole result array. -/
def conv (x : SIn.Idx → EReal) (kv mk : SW.Idx → EReal) : SOut.Idx → EReal := fun i =>
  convAt x kv mk ⟨(i 0).val, (i 0).isLt⟩ ⟨(i 1).val, (i 1).isLt⟩ ⟨(i 2).val, (i 2).isLt⟩ ⟨(i 3).val, (i 3).isLt⟩

/-- The row-major position of `src b k h w` in the input. -/
theorem src_rowMajor (b : Fin 8) (k : Fin 384) (h w : Fin 32) :
    (SIn.rowMajor (src b k h w)).val = ((k.val * 8 + b.val) * 32 + h.val) * 32 + w.val := by
  rw [Shape.rowMajor_val_four]
  show ((k.val / 48 * 384 + (k.val % 48 * 8 + b.val)) * 32 + h.val) * 32 + w.val = _
  have := k.isLt
  omega

end Cert.Conv1x1

end
-- ==== Proof.RefIsConv.lean ====
/-
  The reference's result is `conv` of its arguments.

  Read one operation at a time, the reference's element at `(b, f, h, w)` is: transposed back to `(f, b, h, w)`,
  flattened to `(f, b * 1024 + h * 32 + w)`, a sum over `k` of the masked weight `(f, k)` times the flat view's
  entry `(k, b * 1024 + h * 32 + w)`, and that entry is the input at the index with the same row-major position,
  `src b k h w`. Only index arithmetic is used; no law of the extended reals is needed on this side.
-/
import proofs.«116090_g33251636806223_cont_8to1_b_888_12_alg».proof.Proof.Gen.ReferenceIdeal.Read
import proofs.«116090_g33251636806223_cont_8to1_b_888_12_alg».proof.Proof.Spec

noncomputable section

open scoped BigOperators
open Idealize.ShloMosaic Idealize.ShloMosaic.ValueIdx

namespace Cert.ReferenceIdeal.RefValue

open Cert.ReferenceIdeal Cert.ReferenceIdeal.Read Cert.Conv1x1

/-- The weights' entry the sum reads at `k`: row `f`, column `k`. -/
theorem lidx_eq (i : S8x768x32x32.Idx) (k : Fin 384) :
    lidx_main_v2 (idx_main_v3 (idx_main_v4 i)) k = ix2 (⟨(i 1).val, (i 1).isLt⟩ : Fin 768) k :=
  funext fun a => Fin.ext (by
    have h0 : (i 0).val < 8 := (i 0).isLt
    have h1 : (i 1).val < 768 := (i 1).isLt
    have h2 : (i 2).val < 32 := (i 2).isLt
    have h3 : (i 3).val < 32 := (i 3).isLt
    match a with
    | ⟨0, _⟩ =>
      show ((((i 1).val * 8 + (i 0).val) * 32 + (i 2).val) * 32 + (i 3).val) / 8192 = (i 1).val
      omega
    | ⟨1, _⟩ => rfl)

/-- The input entry the sum reads at `k`: the flat view's `(k, b * 1024 + h * 32 + w)` is `src b k h w`. -/
theorem ridx_eq (i : S8x768x32x32.Idx) (k : Fin 384) :
    idx_main_v0 (ridx_main_v2 (idx_main_v3 (idx_main_v4 i)) k)
      = src ⟨(i 0).val, (i 0).isLt⟩ k ⟨(i 2).val, (i 2).isLt⟩ ⟨(i 3).val, (i 3).isLt⟩ :=
  funext fun a => Fin.ext (by
    have h0 : (i 0).val < 8 := (i 0).isLt
    have h1 : (i 1).val < 768 := (i 1).isLt
    have h2 : (i 2).val < 32 := (i 2).isLt
    have h3 : (i 3).val < 32 := (i 3).isLt
    have hk : k.val < 384 := k.isLt
    match a with
    | ⟨0, _⟩ =>
      show (k.val * 8192 + ((((i 1).val * 8 + (i 0).val) * 32 + (i 2).val) * 32 + (i 3).val) % 8192) / 393216 = k.val / 48
      omega
    | ⟨1, _⟩ =>
      show (k.val * 8192 + ((((i 1).val * 8 + (i 0).val) * 32 + (i 2).val) * 32 + (i 3).val) % 8192) / 1024 % 384 = k.val % 48 * 8 + (i 0).val
      omega
    | ⟨2, _⟩ =>
      show (k.val * 8192 + ((((i 1).val * 8 + (i 0).val) * 32 + (i 2).val) * 32 + (i 3).val) % 8192) / 32 % 32 = (i 2).val
      omega
    | ⟨3, _⟩ =>
      show (k.val * 8192 + ((((i 1).val * 8 + (i 0).val) * 32 + (i 2).val) * 32 + (i 3).val) % 8192) % 32 = (i 3).val
      omega)

/-- The reference's last stage, at the ideal instance, is `conv` of the three arguments. -/
theorem ref_is_conv (x : SIn.Idx → EReal) (kv mk : SW.Idx → EReal) :
    val_main_v4 (F := Ideal) x kv mk = conv x kv mk := by
  funext i
  rw [val_main_v4_apply, val_main_v3_apply, val_main_v2_apply]
  unfold conv convAt
  refine Finset.sum_congr rfl fun k _ => ?_
  rw [val_main_v1_apply, val_main_v0_apply, lidx_eq, ridx_eq]
  rfl

end Cert.ReferenceIdeal.RefValue

end
-- ==== Proof.KernelBlock.lean ====
/-
  What the kernel body writes, read at one element.

  At a grid point the body holds one batch's block `xb` of the re-laid input, [1, 1024, 384], and the two weight
  arrays whole. It multiplies the weights by the mask, drops the block's unit axis, contracts the channel axis
  (axis 1 of both operands) into a zero accumulator and puts the unit axis back. At the ideal instance the two
  changes of float format are the identity and the zero accumulator adds nothing, so the element `(0, q, f)` of
  what is stored is

      sum over k < 384 of xb[0, q, k] * (kv[f, k] * mask[f, k]).
-/
import proofs.«116090_g33251636806223_cont_8to1_b_888_12_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Block

open Cert.KernelIdeal Cert.KernelIdeal.Gen

/-! ## The contraction's operand indices, axis by axis -/

/-- The left operand's row is the result's row. -/
theorem lhs_mm_0 (i : S1024x768.Idx) (q : dot_S1024x384_S768x384_S1024x768_1_1_0_0_n_n.contr.Idx) :
    (dot_S1024x384_S768x384_S1024x768_1_1_0_0_n_n.lhsIdx i q 0).val = (i 0).val := by
  unfold DotDims.lhsIdx
  rw [dif_neg (show ¬(0 : Fin S1024x384.rank) ∈ dot_S1024x384_S768x384_S1024x768_1_1_0_0_n_n.lhsBatch by decide), dif_pos (show (0 : Fin S1024x384.rank) ∈ dot_S1024x384_S768x384_S1024x768_1_1_0_0_n_n.lhsNonContracting by decide)]
  rfl
/-- The left operand's column is the contracted coordinate. -/
theorem lhs_mm_1 (i : S1024x768.Idx) (q : dot_S1024x384_S768x384_S1024x768_1_1_0_0_n_n.contr.Idx) :
    (dot_S1024x384_S768x384_S1024x768_1_1_0_0_n_n.lhsIdx i q 1).val = (q ⟨0, by decide⟩).val :=
  dot_S1024x384_S768x384_S1024x768_1_1_0_0_n_n.lhsIdx_val_of_single rfl i q
/-- The right operand's row is the result's column. -/
theorem rhs_mm_0 (i : S1024x768.Idx) (q : dot_S1024x384_S768x384_S1024x768_1_1_0_0_n_n.contr.Idx) :
    (dot_S1024x384_S768x384_S1024x768_1_1_0_0_n_n.rhsIdx i q 0).val = (i 1).val := by
  unfold DotDims.rhsIdx
  rw [dif_neg (show ¬(0 : Fin S768x384.rank) ∈ dot_S1024x384_S768x384_S1024x768_1_1_0_0_n_n.rhsBatch by decide), dif_pos (show (0 : Fin S768x384.rank) ∈ dot_S1024x384_S768x384_S1024x768_1_1_0_0_n_n.rhsNonContracting by decide)]
  rfl
/-- The right operand's column is the contracted coordinate. -/
theorem rhs_mm_1 (i : S1024x768.Idx) (q : dot_S1024x384_S768x384_S1024x768_1_1_0_0_n_n.contr.Idx) :
    (dot_S1024x384_S768x384_S1024x768_1_1_0_0_n_n.rhsIdx i q 1).val = (q ⟨0, by decide⟩).val :=
  dot_S1024x384_S768x384_S1024x768_1_1_0_0_n_n.rhsIdx_val_of_single rfl i q

/-! ## The contraction at an element -/

/-- Rows of the left operand against rows of the right one: `(q, f)` of the product into zero is the sum over the
    shared column `k`. -/
theorem matmul_at (lhs : FVec Ideal S1024x384 .bf16) (rhs : FVec Ideal S768x384 .bf16) (q : Fin 1024) (f : Fin 768) :
    matmul dot_S1024x384_S768x384_S1024x768_1_1_0_0_n_n none lhs rhs (constant (F := Ideal) S1024x768 .f32 0x00000000#32) (ix2 q f)
      = ∑ k : Fin 384, lhs (ix2 q k) * rhs (ix2 f k) := by
  refine (Ideal.matmul_constant_zero_apply dot_S1024x384_S768x384_S1024x768_1_1_0_0_n_n none lhs rhs (ix2 q f)).trans ?_
  rw [← Equiv.sum_comp (contrEquiv1 dot_S1024x384_S768x384_S1024x768_1_1_0_0_n_n 384 rfl rfl).symm]
  refine Finset.sum_congr rfl fun k _ => ?_
  have hk := contrEquiv1_symm_val dot_S1024x384_S768x384_S1024x768_1_1_0_0_n_n 384 rfl rfl k
  have el : dot_S1024x384_S768x384_S1024x768_1_1_0_0_n_n.lhsIdx (ix2 q f) ((contrEquiv1 dot_S1024x384_S768x384_S1024x768_1_1_0_0_n_n 384 rfl rfl).symm k) = ix2 q k := funext fun a => Fin.ext (by
    match a with
    | ⟨0, _⟩ => exact lhs_mm_0 _ _
    | ⟨1, _⟩ => exact (lhs_mm_1 _ _).trans hk)
  have er : dot_S1024x384_S768x384_S1024x768_1_1_0_0_n_n.rhsIdx (ix2 q f) ((contrEquiv1 dot_S1024x384_S768x384_S1024x768_1_1_0_0_n_n 384 rfl rfl).symm k) = ix2 f k := funext fun a => Fin.ext (by
    match a with
    | ⟨0, _⟩ => exact rhs_mm_0 _ _
    | ⟨1, _⟩ => exact (rhs_mm_1 _ _).trans hk)
  rw [el, er]

/-! ## The stored value at an element -/

/-- The body's one store, at `(0, q, f)`, from the three loaded blocks. -/
theorem pay_at (kv mk : Vec Ideal S768x384 .f32) (xb : Vec Ideal S1x1024x384 .bf16) (q : Fin 1024) (f : Fin 768) :
    k0_pay1 (F := Ideal) kv mk xb (ix3 (0 : Fin 1) q f)
      = ∑ k : Fin 384, xb (ix3 (0 : Fin 1) q k) * (kv (ix2 f k) * mk (ix2 f k)) := by
  unfold k0_pay1
  refine (shapeCast_ab_1ab_apply _ _ (0 : Fin 1) q f).trans ?_
  refine (matmul_at _ _ q f).trans ?_
  refine Finset.sum_congr rfl fun k _ => ?_
  exact congrArg (· * (kv (ix2 f k) * mk (ix2 f k))) (shapeCast_1ab_ab_apply xb _ q k)

/-! ## The region's result as one function -/

/-- What the region leaves in its result array, from the re-laid input `xt` and the two weight arrays: element
    `(b, q, f)` is the sum over `k` of `xt[b, q, k] * (kv[f, k] * mask[f, k])`. Each grid point writes the slab
    of this array with its own first coordinate. -/
def regionOut (xt : FVec Ideal S8x1024x384 .bf16) (kv mk : FVec Ideal S768x384 .f32) : FVec Ideal S8x1024x768 .f32 := fun j =>
  ∑ k : Fin 384, xt (ix3 (⟨(j 0).val, (j 0).isLt⟩ : Fin 8) (⟨(j 1).val, (j 1).isLt⟩ : Fin 1024) k)
    * (kv (ix2 (⟨(j 2).val, (j 2).isLt⟩ : Fin 768) k) * mk (ix2 (⟨(j 2).val, (j 2).isLt⟩ : Fin 768) k))

end Cert.KernelIdeal.Block

end
-- ==== Proof.RegionArray.lean ====
/-
  From the blocks to the region's whole result array.

  The grid has eight points, one per batch. At point `t` the pipeline hands the body slab `t` of the re-laid
  input and the two weight arrays whole, and writes the body's store back as slab `t` of the result. So what
  point `t` writes back is slab `t` of `regionOut` of the arrays as the region finds them: the body's element
  `(0, q, f)` reads `xt[t, q, k]`, `kv[f, k]` and `mask[f, k]`. The eight slabs cover the array (index `i` lies in
  the slab of point `i 0`), hence the array ends holding `regionOut`.
-/
import proofs.«116090_g33251636806223_cont_8to1_b_888_12_alg».proof.Proof.Gen.KernelIdeal.Frame
import proofs.«116090_g33251636806223_cont_8to1_b_888_12_alg».proof.Proof.KernelBlock
import Idealize.ShloMosaic.Lib.Pipeline.Value

set_option maxRecDepth 16384

noncomputable section

open scoped BigOperators
open Idealize.ShloMosaic Idealize.ShloMosaic.TcCoe Idealize.ShloMosaic.ValueIdx Idealize.SL.Sem

namespace Cert.KernelIdeal.Region

open Cert.KernelIdeal Cert.KernelIdeal.Gen Cert.KernelIdeal.Block

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The four index maps over the grid: the re-laid input's and the result's block index is `(t, 0, 0)`, the
    weights' and the mask's is `(0, 0)`. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What point `t` writes back is slab `t` of `regionOut` of the arrays as the region finds them. -/
theorem written_back (c : Dev nD) (t : Fin cfg0.N) :
    (dats m 0 c).flushed 3 t
      = ((cfg0.win 3).blk t).view.read (Elt Ideal) (regionOut (V m c main_v3) (V m c main_arg1) (V m c main_arg2)) := by
  show (cfg0.win 3).cut (grid0.coords t) ((dats m 0 c).after 3 t) = _
  rw [after0_3]
  unfold out0_3
  rw [View.canon_unit_zero zeros3]
  simp only [View.ld_unit_zero (S := S768x384) zeros2, View.ld_unit_zero (S := S1x1024x384) zeros3]
  funext j
  show k0_pay1 (F := Ideal) (iblk m c 1 t) (iblk m c 2 t) (iblk m c 0 t) j
      = regionOut (V m c main_v3) (V m c main_arg1) (V m c main_arg2) (((cfg0.win 3).blk t).view.emb j)
  obtain ⟨u, q, f, rfl⟩ : ∃ (u : Fin 1) (q : Fin 1024) (f : Fin 768), j = ix3 u q f := ⟨j 0, j 1, j 2, eq_ix3 j⟩
  obtain rfl : u = 0 := Subsingleton.elim _ _
  refine (pay_at (iblk m c 1 t) (iblk m c 2 t) (iblk m c 0 t) q f).trans ?_
  unfold regionOut
  refine Finset.sum_congr rfl fun k _ => ?_
  obtain ⟨e00, e01, e02, e10, e11, e20, e21, e30, e31, e32⟩ := index_maps t
  -- a block's coordinate on an axis is its block index times the block's extent plus the coordinate inside it
  refine congrArg₂ (· * ·) ?_ (congrArg₂ (· * ·) ?_ ?_)
  · show V m c main_v3 (((cfg0.win 0).blk t).view.emb (ix3 (0 : Fin 1) q k)) = _
    refine congrArg (V m c main_v3) (funext fun a => Fin.ext ?_)
    match a with
    | ⟨0, _⟩ =>
      show win0_0.index t (0 : Fin 3) * 1 + 1 * 0 = win0_3.index t (0 : Fin 3) * 1 + 1 * 0
      omega
    | ⟨1, _⟩ =>
      show win0_0.index t (1 : Fin 3) * 1024 + 1 * q.val = win0_3.index t (1 : Fin 3) * 1024 + 1 * q.val
      omega
    | ⟨2, _⟩ =>
      show win0_0.index t (2 : Fin 3) * 384 + 1 * k.val = k.val
      omega
  · show V m c main_arg1 (((cfg0.win 1).blk t).view.emb (ix2 f k)) = _
    refine congrArg (V m c main_arg1) (funext fun a => Fin.ext ?_)
    match a with
    | ⟨0, _⟩ =>
      show win0_1.index t (0 : Fin 2) * 768 + 1 * f.val = win0_3.index t (2 : Fin 3) * 768 + 1 * f.val
      omega
    | ⟨1, _⟩ =>
      show win0_1.index t (1 : Fin 2) * 384 + 1 * k.val = k.val
      omega
  · show V m c main_arg2 (((cfg0.win 2).blk t).view.emb (ix2 f k)) = _
    refine congrArg (V m c main_arg2) (funext fun a => Fin.ext ?_)
    match a with
    | ⟨0, _⟩ =>
      show win0_2.index t (0 : Fin 2) * 768 + 1 * f.val = win0_3.index t (2 : Fin 3) * 768 + 1 * f.val
      omega
    | ⟨1, _⟩ =>
      show win0_2.index t (1 : Fin 2) * 384 + 1 * k.val = k.val
      omega

/-- An index of the result array is in point `t`'s slab iff each coordinate is in the slab's range on its axis. -/
theorem mem_slab (t : Fin cfg0.N) (i : S8x1024x768.Idx) :
    i ∈ ((cfg0.win 3).blk t).view.set ↔ ∀ a : Fin 3, win0_3.index t a * S1x1024x768.size a ≤ (i a).val ∧ (i a).val < win0_3.index t a * S1x1024x768.size a + S1x1024x768.size a := by
  show i ∈ ((View.whole main_v4).slice (win0_3.rect t)).set ↔ _
  rw [View.set_slice_whole, Rect.mem_set_unit]
  exact Iff.rfl

/-- Every index of the result array is in the slab of the point its first coordinate names, and every point
    writes its slab back. -/
theorem slabs_cover (i : S8x1024x768.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 768 := (i 2).isLt
  have hN : (i 0).val < cfg0.N := by show (i 0).val < grid0.N; rw [N_0]; exact h0
  refine ⟨⟨(i 0).val, hN⟩, flush0_3 _, ?_⟩
  rw [mem_slab]
  obtain ⟨-, -, -, -, -, -, -, e30, e31, e32⟩ := index_maps ⟨(i 0).val, hN⟩
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    have e : win0_3.index ⟨(i 0).val, hN⟩ (0 : Fin 3) = (i 0).val := e30
    omega
  | ⟨1, _⟩ =>
    show win0_3.index ⟨(i 0).val, _⟩ (1 : Fin 3) * 1024 ≤ (i 1).val ∧ (i 1).val < win0_3.index ⟨(i 0).val, _⟩ (1 : Fin 3) * 1024 + 1024
    omega
  | ⟨2, _⟩ =>
    show win0_3.index ⟨(i 0).val, _⟩ (2 : Fin 3) * 768 ≤ (i 2).val ∧ (i 2).val < win0_3.index ⟨(i 0).val, _⟩ (2 : Fin 3) * 768 + 768
    omega

/-- The region's result array after all eight write-backs. -/
theorem result_array (c : Dev nD) :
    (dats m 0 c).arrAt 3 cfg0.N = regionOut (V m c main_v3) (V m c main_arg1) (V m c main_arg2) :=
  (dats m 0 c).arrAt_eq_of_cover 3 _ (fun t _ => written_back m c t) slabs_cover

end Cert.KernelIdeal.Region

end
-- ==== Proof.HostLayout.lean ====
/-
  The host lines around the region, read at one element.

  BEFORE the region the input [8, 384, 32, 32] is viewed as [8, 48, 8, 1024], its axes are permuted to
  [8, 1024, 8, 48] and merged to [8, 1024, 384]; the change of float format that follows is the identity at the
  ideal instance. Element `(b, q, k)` of the result is `(b, q, k / 48, k % 48)` before the merge, `(k / 48, k % 48, b, q)`
  before the permutation, and that is the input at row-major position `(k * 8 + b) * 1024 + q`: the entry
  `src b k (q / 32) (q % 32)`. So the re-laid array is the flat [384, 8192] view, transposed and cut into batches.

  AFTER the region the result [8, 1024, 768] has its last two axes swapped and the long axis split into 32 x 32:
  element `(b, f, h, w)` of the final array is element `(b, h * 32 + w, f)` of the region's result.
-/
import proofs.«116090_g33251636806223_cont_8to1_b_888_12_alg».proof.Proof.Gen.KernelIdeal.Frame
import proofs.«116090_g33251636806223_cont_8to1_b_888_12_alg».proof.Proof.Spec
import Idealize.ShloMosaic.Lib.ValueIdx
import Idealize.ShloMosaic.Lib.Pipeline.Value

noncomputable section

open Idealize.ShloMosaic Idealize.ShloMosaic.ValueIdx

namespace Cert.KernelIdeal.Layout

open Cert.KernelIdeal Cert.KernelIdeal.Gen Cert.Conv1x1

/-! ## Before the region -/

/-- The re-laid input, as the four host lines before the region compute it. -/
def relaid (x : FVec Ideal S8x384x32x32 .f32) : FVec Ideal S8x1024x384 .bf16 :=
  truncf (F := Ideal) .bf16 (shapeCast S8x1024x384 (transpose S8x1024x8x48 [2, 3, 0, 1] (shapeCast S8x48x8x1024 x shapeCasts_S8x384x32x32_S8x48x8x1024)
    transposes_S8x48x8x1024_S8x1024x8x48_2_3_0_1) shapeCasts_S8x1024x8x48_S8x1024x384) bitsLt_bf16_f32

/-- Element `(b, q, k)` of the re-laid input is the input's entry `src b k (q / 32) (q % 32)`. -/
theorem relaid_at (x : FVec Ideal S8x384x32x32 .f32) (b : Fin 8) (q : Fin 1024) (k : Fin 384) :
    relaid x (ix3 b q k)
      = x (src b k ⟨q.val / 32, by have := q.isLt; omega⟩ ⟨q.val % 32, Nat.mod_lt _ (by decide)⟩) := by
  have hb := b.isLt
  have hq := q.isLt
  have hk := k.isLt
  unfold relaid
  rw [truncf_apply]
  refine (shapeCast_apply _ shapeCasts_S8x1024x8x48_S8x1024x384 (ix3 b q k)
    (ix4 b q (⟨k.val / 48, by omega⟩ : Fin 8) (⟨k.val % 48, Nat.mod_lt _ (by decide)⟩ : Fin 48)) (by
      rw [Shape.rowMajor_val_four, Shape.rowMajor_val_three]
      show ((b.val * 1024 + q.val) * 8 + k.val / 48) * 48 + k.val % 48 = (b.val * 1024 + q.val) * 384 + k.val
      omega)).trans ?_
  refine (transpose_apply [2, 3, 0, 1] _ transposes_S8x48x8x1024_S8x1024x8x48_2_3_0_1 _
    (ix4 (⟨k.val / 48, by omega⟩ : Fin 8) (⟨k.val % 48, Nat.mod_lt _ (by decide)⟩ : Fin 48) b q) (fun a => match a with
      | ⟨0, _⟩ => rfl
      | ⟨1, _⟩ => rfl
      | ⟨2, _⟩ => rfl
      | ⟨3, _⟩ => rfl)).trans ?_
  exact shapeCast_apply x shapeCasts_S8x384x32x32_S8x48x8x1024 _ _ (by
    rw [src_rowMajor, Shape.rowMajor_val_four]
    show ((k.val * 8 + b.val) * 32 + q.val / 32) * 32 + q.val % 32 = ((k.val / 48 * 48 + k.val % 48) * 8 + b.val) * 1024 + q.val
    omega)

/-! ## After the region -/

/-- The final array, as the two host lines after the region compute it from the region's result. -/
def relayOut (z : FVec Ideal S8x1024x768 .f32) : FVec Ideal S8x768x32x32 .f32 :=
  shapeCast S8x768x32x32 (transpose S8x768x1024 [0, 2, 1] z transposes_S8x1024x768_S8x768x1024_0_2_1) shapeCasts_S8x768x1024_S8x768x32x32

/-- Element `(b, f, h, w)` of the final array is element `(b, h * 32 + w, f)` of the region's result. -/
theorem relayOut_at (z : FVec Ideal S8x1024x768 .f32) (b : Fin 8) (f : Fin 768) (h w : Fin 32) :
    relayOut z (ix4 b f h w) = z (ix3 b (⟨h.val * 32 + w.val, by have := h.isLt; have := w.isLt; omega⟩ : Fin 1024) f) := by
  have hh := h.isLt
  have hw := w.isLt
  unfold relayOut
  refine (shapeCast_apply _ shapeCasts_S8x768x1024_S8x768x32x32 (ix4 b f h w)
    (ix3 b f (⟨h.val * 32 + w.val, by omega⟩ : Fin 1024)) (by
      rw [Shape.rowMajor_val_three, Shape.rowMajor_val_four]
      show (b.val * 768 + f.val) * 1024 + (h.val * 32 + w.val) = ((b.val * 768 + f.val) * 32 + h.val) * 32 + w.val
      omega)).trans ?_
  exact transpose_apply [0, 2, 1] z transposes_S8x1024x768_S8x768x1024_0_2_1 _ _ (fun a => match a with
    | ⟨0, _⟩ => rfl
    | ⟨1, _⟩ => rfl
    | ⟨2, _⟩ => rfl)

end Cert.KernelIdeal.Layout

end
-- ==== Proof.KernelIsConv.lean ====
/-
  The kernel's composed term is `conv`.

  Element `(b, f, h, w)` of the final array is element `(b, h * 32 + w, f)` of the region's result, which is the
  sum over `k` of `xt[b, h * 32 + w, k] * (kv[f, k] * mask[f, k])`, and `xt[b, q, k]` is the input's entry
  `src b k (q / 32) (q % 32)`; at `q = h * 32 + w` that is `src b k h w`. The reference's term has the two factors
  in the other order. Multiplication of extended reals is commutative with no side condition, so the two sums
  agree term by term and the finiteness of the inputs is not used.
-/
import proofs.«116090_g33251636806223_cont_8to1_b_888_12_alg».proof.Proof.KernelBlock
import proofs.«116090_g33251636806223_cont_8to1_b_888_12_alg».proof.Proof.HostLayout
import proofs.«116090_g33251636806223_cont_8to1_b_888_12_alg».proof.Proof.Spec

noncomputable section

open scoped BigOperators
open Idealize.ShloMosaic Idealize.ShloMosaic.ValueIdx

namespace Cert.KernelIdeal.KernelValue

open Cert.KernelIdeal Cert.KernelIdeal.Block Cert.KernelIdeal.Layout Cert.Conv1x1

/-- Re-laying, the region and the re-laying back compose to `conv`. -/
theorem composed_is_conv (x : FVec Ideal S8x384x32x32 .f32) (kv mk : FVec Ideal S768x384 .f32) :
    relayOut (regionOut (relaid x) kv mk) = conv x kv mk := by
  funext i
  obtain ⟨b, f, h, w, rfl⟩ : ∃ (b : Fin 8) (f : Fin 768) (h w : Fin 32), i = ix4 b f h w := ⟨i 0, i 1, i 2, i 3, eq_ix4 i⟩
  have hh := h.isLt
  have hw := w.isLt
  rw [relayOut_at]
  unfold regionOut conv convAt
  refine Finset.sum_congr rfl fun k _ => ?_
  rw [mul_comm]
  refine congrArg₂ (· * ·) rfl ?_
  refine (relaid_at x b ⟨h.val * 32 + w.val, by omega⟩ k).trans ?_
  refine congrArg x (congrArg₂ (fun h' w' => src b k h' w') (Fin.ext ?_) (Fin.ext ?_))
  · show (h.val * 32 + w.val) / 32 = h.val
    omega
  · show (h.val * 32 + w.val) % 32 = w.val
    omega

end Cert.KernelIdeal.KernelValue

end
-- ==== Proof.KernelRun.lean ====
/-
  The kernel's run, read.

  Every fair execution of the kernel's program ends with the region's result array at `regionOut` of what the
  region found, the buffers after the region at the two trailing host lines applied to that, and the three
  arguments as launched. The region found the re-laid input `relaid x` in its first window and the two weight
  arrays untouched, so the final array is `relayOut (regionOut (relaid x) kv mask)`, which is `conv x kv mask`.
-/
import proofs.«116090_g33251636806223_cont_8to1_b_888_12_alg».proof.Proof.RegionArray
import proofs.«116090_g33251636806223_cont_8to1_b_888_12_alg».proof.Proof.HostLayout
import proofs.«116090_g33251636806223_cont_8to1_b_888_12_alg».proof.Proof.KernelIsConv
import Idealize.ShloMosaic.Lib.StableHlo.Run

set_option maxRecDepth 16384

noncomputable section

open Idealize.ShloMosaic Idealize.ShloMosaic.TcCoe Idealize.ShloMosaic.ValueIdx Idealize.SL.Sem

namespace Cert.KernelIdeal.KernelValue

open Cert.KernelIdeal Cert.KernelIdeal.Gen Cert.KernelIdeal.Block Cert.KernelIdeal.Layout Cert.KernelIdeal.Region Cert.Conv1x1

variable (m : (ℓ : Loc nD τ sig) → Buf (Elt Ideal) ℓ) (ρ : Dev nD → PrngReg)

/-- The region finds the re-laid input in its first window's array. -/
theorem found_relaid (c : Dev nD) :
    (V m c main_v3 : FVec Ideal S8x1024x384 .bf16) = relaid (m ((c : Thread nD τ).loc main_arg0)) := by
  show StableHlo.after hostOps0 (fun b => m (c, b)) (Proc.devRef .tc main_v3) = _
  after_results
  rfl

/-- The final array after the two trailing host lines, from what the region found. -/
theorem after_tail (c : Dev nD) :
    (Pipeline.afterTail₀ cfgs (dats m) 0 (V0 m) [hostOps1] c main_v6 : FVec Ideal S8x768x32x32 .f32)
      = relayOut (regionOut (V m c main_v3) (V m c main_arg1) (V m c main_arg2)) := by
  unfold Pipeline.afterTail₀
  show StableHlo.after hostOps1 _ (Proc.devRef .tc main_v6) = _
  after_results
  refine Eq.trans (b := relayOut (Pipeline.withArrays (cfgs 0).spec c (V0 m c) (fun w => (dats m 0 c).arrAt w (cfgs 0).N) (Proc.devRef .tc main_v4))) rfl ?_
  exact congrArg relayOut ((Pipeline.withArrays_arr spec0 launch0.win.arr_inj c _ _ 3).trans (result_array m c))

/-- The final array is `conv` of the arguments as launched. -/
theorem final_is_conv (c : Dev nD) :
    (Pipeline.afterTail₀ cfgs (dats m) 0 (V0 m) [hostOps1] c main_v6 : FVec Ideal S8x768x32x32 .f32)
      = conv (m ((c : Thread nD τ).loc main_arg0)) (m ((c : Thread nD τ).loc main_arg1)) (m ((c : Thread nD τ).loc main_arg2)) := by
  rw [after_tail, found_relaid, V_main_arg1, V_main_arg2]
  exact composed_is_conv _ _ _

/-- The kernel's run with its result named: the final array at `conv` of the arguments, the arguments unchanged. -/
theorem run : θ_run defs (onTc (τ := τ) (main (F := Ideal))) ⟨m, fun _ => 0, ρ⟩ fun r => ∀ c : Dev nD,
      r.2.mem ((c.tc : Thread nD τ).loc main_v6)
        = conv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (final_is_conv m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelValue

end
-- ==== Proof.lean ====
/-
  The kernel and its reference compute one function.

  The operator is a 1x1 convolution with masked weights whose input is read through a raw reshape: the
  [8, 384, 32, 32] input is viewed as a [384, 8192] matrix and multiplied on the left by `kv * mask` [768, 384],
  and the product [768, 8192] is split and permuted to [8, 768, 32, 32]. Both programs end with

      out[b, f, h, w] = sum over k < 384 of (kv[f, k] * mask[f, k]) * x[k / 48, (k % 48) * 8 + b, h, w]

  (`Conv1x1.conv`). The reference does so directly. The kernel first re-lays the input as [8, 1024, 384], one
  slab per batch with the channel axis last, then one grid point per batch contracts the channel axis of the slab
  against the channel axis of the masked weights, and the result [8, 1024, 768] is transposed and split. Its sum
  has the factors in the other order; at the ideal instance the changes of float format are the identity, and
  multiplication of extended reals commutes unconditionally, so the precondition is not used by the value claim.

  The three frames are the generated frames of the two kernel programs and the reference's generated run with the
  result dropped; the idealization rewrote nothing, so `preserves` is `True`.
-/
import proofs.«116090_g33251636806223_cont_8to1_b_888_12_alg».proof.Defs
import proofs.«116090_g33251636806223_cont_8to1_b_888_12_alg».proof.Proof.Gen.Kernel
import proofs.«116090_g33251636806223_cont_8to1_b_888_12_alg».proof.Proof.Gen.Kernel.Frame
import proofs.«116090_g33251636806223_cont_8to1_b_888_12_alg».proof.Proof.Gen.KernelIdeal
import proofs.«116090_g33251636806223_cont_8to1_b_888_12_alg».proof.Proof.Gen.KernelIdeal.Frame
import proofs.«116090_g33251636806223_cont_8to1_b_888_12_alg».proof.Proof.Gen.ReferenceIdeal
import proofs.«116090_g33251636806223_cont_8to1_b_888_12_alg».proof.Proof.Gen.Pre_finite_inputs
import proofs.«116090_g33251636806223_cont_8to1_b_888_12_alg».proof.Proof.Gen.ReferenceIdeal.Run
import proofs.«116090_g33251636806223_cont_8to1_b_888_12_alg».proof.Proof.Gen.ReferenceIdeal.Read
import proofs.«116090_g33251636806223_cont_8to1_b_888_12_alg».proof.Proof.RefIsConv
import proofs.«116090_g33251636806223_cont_8to1_b_888_12_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result at `conv` of them. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_conv, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
